-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x64 .f32) (main_arg1 : FVec F S8x2048x2048 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x64 : Shape := ⟨3, ![8, 2048, 64]⟩
abbrev S8x2048x2048 : Shape := ⟨3, ![8, 2048, 2048]⟩
abbrev S1x2048x2048 : Shape := ⟨3, ![1, 2048, 2048]⟩
abbrev S2048x2048 : Shape := ⟨2, ![2048, 2048]⟩
abbrev S1x2048x64 : Shape := ⟨3, ![1, 2048, 64]⟩
abbrev S2048x64 : Shape := ⟨2, ![2048, 64]⟩

abbrev nBuf : Space → Nat
  | .hbm => 3
  | .vmem => 4
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S8x2048x64, .f32⟩
  | .local _ .vmem, ⟨0, _⟩ => ⟨S8x2048x64, .f32⟩
  | .local _ .vmem, ⟨1, _⟩ => ⟨S1x2048x2048, .f32⟩
  | .local _ .vmem, ⟨2, _⟩ => ⟨S1x2048x2048, .f32⟩
  | .local _ .vmem, ⟨3, _⟩ => ⟨S8x2048x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v2 : Index := Scalar.indexCast arg0
  let c0_2 : Index := 0#32
  let c0_3 : Index := 0#32
  ![v2.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  h_S1x2048x64 : 0 < S1x2048x64.numel
  shapeCasts_S1x2048x64_S2048x64 : S1x2048x64.ShapeCasts S2048x64
  shapeCasts_S2048x64_S1x2048x64 : S2048x64.ShapeCasts S1x2048x64
  dot_S2048x2048_S2048x64_S2048x64_1_0_0_1_n_n_wf : DotDims.WF S2048x2048 S2048x64 S2048x64 [1] [0] [0] [1] [] []
  hrank0 : 0 < grid0.rank
  k0_off1_inb : ∀ i : grid0.Coords, ∀ a, (k0_off1 i) a + S1x2048x64.size a ≤ S8x2048x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x2048x64.size a ≤ S8x2048x64.size a
  hwx0_0 : ∀ i : grid0.Coords, EltTy.bits .f32 = 32 ∨ (Rect.block (s := S8x2048x64) S8x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .f32 = 32 ∨ (Rect.block (s := S8x2048x2048) S1x2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048x64.size a ≤ S8x2048x64.size a
  hwx0_2 : ∀ i : grid0.Coords, EltTy.bits .f32 = 32 ∨ (Rect.block (s := S8x2048x64) S8x2048x64.size (cc0_transform_2 i) (hinb0_2 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S8x2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x2048x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x2048_S8x2048x64_S8x2048x64_2_1_1_2_0_0_wf : DotDims.WF S8x2048x2048 S8x2048x64 S8x2048x64 [2] [1] [1] [2] [0] [0]

variable [Facts₀]

def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.StepBits.lean ====
/-
  One grid step of the batched product, as a relation on the output's staging buffer.

  The output window is the whole array f32[8, 2048, 64], staged once and written back only after the last
  grid step; step `b` stores the product of batch `b` into row-slab `b` of that buffer and touches nothing
  else. So what a step leaves is a function of what it found: slab `b` replaced, every other slab kept
  (`stepOut`). The first input window is the whole array of right factors (fetched once, never written),
  the second the left factor of batch `b` (fetched at every step). This module states that relation,
  proves that the kernel body realises it at every step, and runs the pipeline with it: every execution
  terminates, the two argument arrays are unchanged, and the result array is related to its entry
  contents by eight such steps.
-/
import proofs.«120710_g59390807769544_cont_9to1_m_1017_16_alg».proof.Proof.Gen.Kernel.Frame
import proofs.«120710_g59390807769544_cont_9to1_m_1017_16_alg».proof.Proof.Gen.Kernel.Skeleton
import Idealize.ShloMosaic.Lib.WritesUnit

set_option maxRecDepth 16384

noncomputable section

namespace Cert.Kernel.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-! ## What one step leaves in the output buffer -/

/-- The slab a step at grid coordinates `i` computes: the product of the left factor `x1` (one batch) with
    slab `i` of the right factors `x0`. -/
def slab (i : grid0.Coords) (x0 : Vec F S8x2048x64 .f32) (x1 : Vec F S1x2048x2048 .f32) : FVec F S1x2048x64 .f32 :=
  k0_pay1 (View.ld x1 (Rect.unit (s := S1x2048x2048) ![0, 0, 0] S1x2048x2048.size Facts₀.inb_S1x2048x2048_S1x2048x2048_0_0_0))
    (View.ld x0 (Rect.unit (s := S8x2048x64) (k0_off1 i) S1x2048x64.size (Facts₀.k0_off1_inb i)))

/-- The output buffer after the step at `i`, found at `Y`: slab `i` is the step's product, the rest is `Y`. -/
def stepOut (i : grid0.Coords) (x0 : Vec F S8x2048x64 .f32) (x1 : Vec F S1x2048x2048 .f32) (Y : Vec F S8x2048x64 .f32) :
    Vec F S8x2048x64 .f32 := fun y =>
  if h : ∀ a, k0_off1 i a ≤ (y a).val ∧ (y a).val < k0_off1 i a + S1x2048x64.size a then
    slab i x0 x1 (Rect.unitLocal (s := S8x2048x64) (off := k0_off1 i) (size := S1x2048x64.size) y h)
  else Y y

/-! ## The kernel body is one step -/

set_option maxHeartbeats 1000000 in
/-- On whole staging memrefs holding the right factors `x0`, the batch's left factor `x1` and any output
    contents `d`, the body runs and leaves the inputs as they were and the output at `stepOut i x0 x1 d`. -/
theorem bodyRun (c : Dev nD) (i : grid0.Coords) (arg1 : Memref sig .tc .vmem S8x2048x64 .f32) (harg1 : arg1.IsWhole) (arg2 : Memref sig .tc .vmem S1x2048x2048 .f32) (harg2 : arg2.IsWhole) (arg3 : Memref sig .tc .vmem S8x2048x64 .f32) (harg3 : arg3.IsWhole)
    (x0 : Vec F S8x2048x64 .f32) (x1 : Vec F S1x2048x2048 .f32) (d : Vec F S8x2048x64 .f32) :
      ∀ (E : Set ℕ) (K : PUnit → sProp 𝕄),
        iprop(owns (c : Thread nD τ) arg1 fullShare x0 ∗ owns (c : Thread nD τ) arg2 fullShare x1 ∗ owns (c : Thread nD τ) arg3 fullShare d
            ∗ (iprop(owns (c : Thread nD τ) arg1 fullShare x0 ∗ owns (c : Thread nD τ) arg2 fullShare x1 ∗ owns (c : Thread nD τ) arg3 fullShare (stepOut i x0 x1 d)) -∗ K ⟨⟩))
          ⊢ wp frame (wpE (defs₀ (F := F)) Variants.none c none) E (cc0__bmm_kernel i arg1 harg1 arg2 harg2 arg3 harg3) K := by
    intro E K
    simp only [cc0__bmm_kernel_eq_skeleton]; unfold cc0__bmm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    funext y
    rw [View.read_writes_cons_unit arg3.view (harg3.unread d) (Facts₀.k0_off1_inb i) _ [] y rfl]
    unfold stepOut slab
    simp only [View.writes_nil, View.readAt_eq_ld, harg1.read_unread, harg2.read_unread, harg3.read_unread]

/-! ## The pipeline's proof data -/

variable (m : (ℓ : Loc nD τ sig) → Buf (Elt F) ℓ) (ρ : Dev nD → PrngReg)

/-- The right factors as the region finds them: the first argument array, whole. -/
abbrev rhs (c : Dev nD) : Vec F S8x2048x64 .f32 := V m c main_arg0

/-- The first window's block index is zero on every axis at every grid point: its block is the whole array. -/
theorem idx0 : ∀ (t : Fin cfg0.N) (a : Fin 3), (cfg0.win 0).index t a = 0 :=
  (by decide +kernel : ∀ (t : Fin grid0.N) (a : Fin 3), win0_0.index t a = 0)

/-- So the block the first window stages is the array itself, at every point. -/
theorem iblk0_eq (c : Dev nD) (t : Fin cfg0.N) : iblk m c 0 t = rhs m c := by
  funext y
  show V m c main_arg0 (((cfg0.win 0).blk t).view.emb y) = V m c main_arg0 y
  refine congrArg _ (funext fun a => Fin.ext ?_)
  show (cfg0.win 0).index t a * S8x2048x64.size a + 1 * (y a).val = (y a).val
  rw [idx0 t a]; omega

/-- Neither input window is ever written back, and the output window is never fetched. -/
theorem flush0 : ∀ t : Fin cfg0.N, (cfg0.win 0).flush t = false :=
  (by decide +kernel : ∀ t : Fin grid0.N, win0_0.flush t = false)
theorem fetch2 : ∀ t : Fin cfg0.N, (cfg0.win 2).fetch t = false :=
  (by decide +kernel : ∀ t : Fin grid0.N, win0_2.fetch t = false)

/-- The proof data of the pipeline on core `c`: the arrays as the region finds them; the two inputs' staging
    buffers left at their blocks; the output's staging buffer left at one step over what the body found there. -/
def rdat (c : Dev nD) : RDat τ (Elt F) Unit ℕ (UR sig nD τ) ℕ cfg0 c where
  A w := V m c (Pipeline.arrRef spec0 w)
  after w t := match w with
    | ⟨0, _⟩ => fun _ X => X = rhs m c
    | ⟨1, _⟩ => fun _ X => X = iblk m c 1 t
    | ⟨2, _⟩ => fun Y X => X = stepOut (grid0.coords t) (rhs m c) (iblk m c 1 t) Y
  Φ _ := Pipeline.ΦA spec0 c
  q _ := fullShare
  owed _ := 0

theorem after0 (c : Dev nD) (t : Fin cfg0.N) (Y X) : (rdat m c).after 0 t Y X ↔ X = rhs m c := by dsimp only [rdat]; exact Iff.rfl
theorem after1 (c : Dev nD) (t : Fin cfg0.N) (Y X) : (rdat m c).after 1 t Y X ↔ X = iblk m c 1 t := by dsimp only [rdat]; exact Iff.rfl
theorem after2 (c : Dev nD) (t : Fin cfg0.N) (Y X) :
    (rdat m c).after 2 t Y X ↔ X = stepOut (grid0.coords t) (rhs m c) (iblk m c 1 t) Y := by dsimp only [rdat]; exact Iff.rfl

/-- What the body finds in the first window's buffer is the right factors, at every point: fetched at the first,
    left there by the step before at the others. -/
theorem finds0 (c : Dev nD) (t : Fin cfg0.N) (Y) (h : (rdat m c).Finds 0 t Y) : Y = rhs m c := by
  by_cases ht : t.val = 0
  · have hf : (cfg0.win 0).fetch t = true := (fetch0_0 t).mpr (by rw [ht])
    obtain ⟨d, rfl⟩ := ((rdat m c).finds_of_fetch hf Y).mp h
    refine Eq.trans ?_ (iblk0_eq m c t)
    unfold RDat.fetched RDat.blockOf iblk; rfl
  · have hf : (cfg0.win 0).fetch t = false := by
      cases hb : (cfg0.win 0).fetch t
      · rfl
      · have := (fetch0_0 t).mp hb; have h8 : t.val < 8 := Nat.lt_of_lt_of_eq t.isLt N_0; omega
    rcases ((rdat m c).finds_of_pos hf ht Y).mp h with hfl | ⟨Y', -, hL⟩
    · rw [flush0] at hfl; exact absurd hfl Bool.false_ne_true
    · exact (after0 m c _ Y' Y).mp hL

/-- What it finds in the second window's buffer is the batch's left factor, fetched at every point. -/
theorem finds1 (c : Dev nD) (t : Fin cfg0.N) (Y) (h : (rdat m c).Finds 1 t Y) : Y = iblk m c 1 t := by
  obtain ⟨d, rfl⟩ := ((rdat m c).finds_of_fetch (fetch0_1 t) Y).mp h
  unfold RDat.fetched RDat.blockOf iblk; rfl

/-! ## The body obligation -/

/-- The body at any point, on the staging buffers at what the pipeline hands it. -/
theorem sound_body (c : Dev nD) (t : Fin cfg0.N) (d : Vec F S8x2048x64 .f32) :
    iprop((rdat m c).Φ t.castSucc ∗ (rdat m c).owesAt () t.castSucc
      ∗ owns (c : Thread nD τ) (st0_0 t) fullShare (rhs m c)
      ∗ owns (c : Thread nD τ) (st0_1 t) fullShare (iblk m c 1 t)
      ∗ owns (c : Thread nD τ) (st0_2 t) fullShare d)
    ⊢ wp frame (wpE (defs₀ (F := F)) Variants.none c none) Set.univ (bodyAt0 t) (fun _ =>
        iprop((rdat m c).Φ t.succ ∗ (rdat m c).owesAt () t.succ
          ∗ (∃ X, ⌜(rdat m c).after 0 t (rhs m c) X⌝ ∗ owns (c : Thread nD τ) (st0_0 t) fullShare X)
          ∗ (∃ X, ⌜(rdat m c).after 1 t (iblk m c 1 t) X⌝ ∗ owns (c : Thread nD τ) (st0_1 t) fullShare X)
          ∗ (∃ X, ⌜(rdat m c).after 2 t d X⌝ ∗ owns (c : Thread nD τ) (st0_2 t) fullShare X))) := by
  rw [show (rdat m c).Φ t.succ = (rdat m c).Φ t.castSucc from rfl,
    show (rdat m c).owesAt () t.succ = (rdat m c).owesAt () t.castSucc from rfl]
  simp only [after0, after1, after2]
  unfold bodyAt0
  iintro ⟨HΦ, Ho, H0, H1, H2⟩
  iapply ((bodyRun c (grid0.coords t) _ _ _ _ _ _ (rhs m c) (iblk m c 1 t) d) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  iexists _; isplitr; · ipureintro; rfl
  iexact H2

/-- The relational body obligation, at every point and for all contents the buffers may then hold. -/
theorem body_obligation (c : Dev nD) : (rdat (F := F) m c).BodyObligation (defs₀ (F := F)) Variants.none () Set.univ := fun t Y hY => by
  have h0 := finds0 m c t (Y 0) (hY 0)
  have h1 := finds1 m c t (Y 1) (hY 1)
  rw [bigSep_W0, bigSep_W0, h0, h1]
  exact sound_body m c t (Y 2)

/-! ## The run -/

set_option backward.isDefEq.respectTransparency.types false in
/-- Every weakly fair execution of @main terminates; each input array ends as it began and the result array
    stands in the relation the eight steps compose to (`RDat.ArrAt`). -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: every execution terminates with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨Pipeline.RDat.FramePost.arr_in h c 0 rfl, Pipeline.RDat.FramePost.arr_in h c 1 rfl⟩)
    (run_main m ρ)

end Cert.Kernel.Step

end
-- ==== Proof.StepIdeal.lean ====
/-
  One grid step of the batched product, as a relation on the output's staging buffer.

  The output window is the whole array f32[8, 2048, 64], staged once and written back only after the last
  grid step; step `b` stores the product of batch `b` into row-slab `b` of that buffer and touches nothing
  else. So what a step leaves is a function of what it found: slab `b` replaced, every other slab kept
  (`stepOut`). The first input window is the whole array of right factors (fetched once, never written),
  the second the left factor of batch `b` (fetched at every step). This module states that relation,
  proves that the kernel body realises it at every step, and runs the pipeline with it: every execution
  terminates, the two argument arrays are unchanged, and the result array is related to its entry
  contents by eight such steps.
-/
import proofs.«120710_g59390807769544_cont_9to1_m_1017_16_alg».proof.Proof.Gen.KernelIdeal.Frame
import proofs.«120710_g59390807769544_cont_9to1_m_1017_16_alg».proof.Proof.Gen.KernelIdeal.Skeleton
import Idealize.ShloMosaic.Lib.WritesUnit

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! ## What one step leaves in the output buffer -/

/-- The slab a step at grid coordinates `i` computes: the product of the left factor `x1` (one batch) with
    slab `i` of the right factors `x0`. -/
def slab (i : grid0.Coords) (x0 : Vec F S8x2048x64 .f32) (x1 : Vec F S1x2048x2048 .f32) : FVec F S1x2048x64 .f32 :=
  k0_pay1 (View.ld x1 (Rect.unit (s := S1x2048x2048) ![0, 0, 0] S1x2048x2048.size Facts₀.inb_S1x2048x2048_S1x2048x2048_0_0_0))
    (View.ld x0 (Rect.unit (s := S8x2048x64) (k0_off1 i) S1x2048x64.size (Facts₀.k0_off1_inb i)))

/-- The output buffer after the step at `i`, found at `Y`: slab `i` is the step's product, the rest is `Y`. -/
def stepOut (i : grid0.Coords) (x0 : Vec F S8x2048x64 .f32) (x1 : Vec F S1x2048x2048 .f32) (Y : Vec F S8x2048x64 .f32) :
    Vec F S8x2048x64 .f32 := fun y =>
  if h : ∀ a, k0_off1 i a ≤ (y a).val ∧ (y a).val < k0_off1 i a + S1x2048x64.size a then
    slab i x0 x1 (Rect.unitLocal (s := S8x2048x64) (off := k0_off1 i) (size := S1x2048x64.size) y h)
  else Y y

/-! ## The kernel body is one step -/

set_option maxHeartbeats 1000000 in
/-- On whole staging memrefs holding the right factors `x0`, the batch's left factor `x1` and any output
    contents `d`, the body runs and leaves the inputs as they were and the output at `stepOut i x0 x1 d`. -/
theorem bodyRun (c : Dev nD) (i : grid0.Coords) (arg1 : Memref sig .tc .vmem S8x2048x64 .f32) (harg1 : arg1.IsWhole) (arg2 : Memref sig .tc .vmem S1x2048x2048 .f32) (harg2 : arg2.IsWhole) (arg3 : Memref sig .tc .vmem S8x2048x64 .f32) (harg3 : arg3.IsWhole)
    (x0 : Vec F S8x2048x64 .f32) (x1 : Vec F S1x2048x2048 .f32) (d : Vec F S8x2048x64 .f32) :
      ∀ (E : Set ℕ) (K : PUnit → sProp 𝕄),
        iprop(owns (c : Thread nD τ) arg1 fullShare x0 ∗ owns (c : Thread nD τ) arg2 fullShare x1 ∗ owns (c : Thread nD τ) arg3 fullShare d
            ∗ (iprop(owns (c : Thread nD τ) arg1 fullShare x0 ∗ owns (c : Thread nD τ) arg2 fullShare x1 ∗ owns (c : Thread nD τ) arg3 fullShare (stepOut i x0 x1 d)) -∗ K ⟨⟩))
          ⊢ wp frame (wpE (defs₀ (F := F)) Variants.none c none) E (cc0__bmm_kernel i arg1 harg1 arg2 harg2 arg3 harg3) K := by
    intro E K
    simp only [cc0__bmm_kernel_eq_skeleton]; unfold cc0__bmm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    funext y
    rw [View.read_writes_cons_unit arg3.view (harg3.unread d) (Facts₀.k0_off1_inb i) _ [] y rfl]
    unfold stepOut slab
    simp only [View.writes_nil, View.readAt_eq_ld, harg1.read_unread, harg2.read_unread, harg3.read_unread]

/-! ## The pipeline's proof data -/

variable (m : (ℓ : Loc nD τ sig) → Buf (Elt F) ℓ) (ρ : Dev nD → PrngReg)

/-- The right factors as the region finds them: the first argument array, whole. -/
abbrev rhs (c : Dev nD) : Vec F S8x2048x64 .f32 := V m c main_arg0

/-- The first window's block index is zero on every axis at every grid point: its block is the whole array. -/
theorem idx0 : ∀ (t : Fin cfg0.N) (a : Fin 3), (cfg0.win 0).index t a = 0 :=
  (by decide +kernel : ∀ (t : Fin grid0.N) (a : Fin 3), win0_0.index t a = 0)

/-- So the block the first window stages is the array itself, at every point. -/
theorem iblk0_eq (c : Dev nD) (t : Fin cfg0.N) : iblk m c 0 t = rhs m c := by
  funext y
  show V m c main_arg0 (((cfg0.win 0).blk t).view.emb y) = V m c main_arg0 y
  refine congrArg _ (funext fun a => Fin.ext ?_)
  show (cfg0.win 0).index t a * S8x2048x64.size a + 1 * (y a).val = (y a).val
  rw [idx0 t a]; omega

/-- Neither input window is ever written back, and the output window is never fetched. -/
theorem flush0 : ∀ t : Fin cfg0.N, (cfg0.win 0).flush t = false :=
  (by decide +kernel : ∀ t : Fin grid0.N, win0_0.flush t = false)
theorem fetch2 : ∀ t : Fin cfg0.N, (cfg0.win 2).fetch t = false :=
  (by decide +kernel : ∀ t : Fin grid0.N, win0_2.fetch t = false)

/-- The proof data of the pipeline on core `c`: the arrays as the region finds them; the two inputs' staging
    buffers left at their blocks; the output's staging buffer left at one step over what the body found there. -/
def rdat (c : Dev nD) : RDat τ (Elt F) Unit ℕ (UR sig nD τ) ℕ cfg0 c where
  A w := V m c (Pipeline.arrRef spec0 w)
  after w t := match w with
    | ⟨0, _⟩ => fun _ X => X = rhs m c
    | ⟨1, _⟩ => fun _ X => X = iblk m c 1 t
    | ⟨2, _⟩ => fun Y X => X = stepOut (grid0.coords t) (rhs m c) (iblk m c 1 t) Y
  Φ _ := Pipeline.ΦA spec0 c
  q _ := fullShare
  owed _ := 0

theorem after0 (c : Dev nD) (t : Fin cfg0.N) (Y X) : (rdat m c).after 0 t Y X ↔ X = rhs m c := by dsimp only [rdat]; exact Iff.rfl
theorem after1 (c : Dev nD) (t : Fin cfg0.N) (Y X) : (rdat m c).after 1 t Y X ↔ X = iblk m c 1 t := by dsimp only [rdat]; exact Iff.rfl
theorem after2 (c : Dev nD) (t : Fin cfg0.N) (Y X) :
    (rdat m c).after 2 t Y X ↔ X = stepOut (grid0.coords t) (rhs m c) (iblk m c 1 t) Y := by dsimp only [rdat]; exact Iff.rfl

/-- What the body finds in the first window's buffer is the right factors, at every point: fetched at the first,
    left there by the step before at the others. -/
theorem finds0 (c : Dev nD) (t : Fin cfg0.N) (Y) (h : (rdat m c).Finds 0 t Y) : Y = rhs m c := by
  by_cases ht : t.val = 0
  · have hf : (cfg0.win 0).fetch t = true := (fetch0_0 t).mpr (by rw [ht])
    obtain ⟨d, rfl⟩ := ((rdat m c).finds_of_fetch hf Y).mp h
    refine Eq.trans ?_ (iblk0_eq m c t)
    unfold RDat.fetched RDat.blockOf iblk; rfl
  · have hf : (cfg0.win 0).fetch t = false := by
      cases hb : (cfg0.win 0).fetch t
      · rfl
      · have := (fetch0_0 t).mp hb; have h8 : t.val < 8 := Nat.lt_of_lt_of_eq t.isLt N_0; omega
    rcases ((rdat m c).finds_of_pos hf ht Y).mp h with hfl | ⟨Y', -, hL⟩
    · rw [flush0] at hfl; exact absurd hfl Bool.false_ne_true
    · exact (after0 m c _ Y' Y).mp hL

/-- What it finds in the second window's buffer is the batch's left factor, fetched at every point. -/
theorem finds1 (c : Dev nD) (t : Fin cfg0.N) (Y) (h : (rdat m c).Finds 1 t Y) : Y = iblk m c 1 t := by
  obtain ⟨d, rfl⟩ := ((rdat m c).finds_of_fetch (fetch0_1 t) Y).mp h
  unfold RDat.fetched RDat.blockOf iblk; rfl

/-! ## The body obligation -/

/-- The body at any point, on the staging buffers at what the pipeline hands it. -/
theorem sound_body (c : Dev nD) (t : Fin cfg0.N) (d : Vec F S8x2048x64 .f32) :
    iprop((rdat m c).Φ t.castSucc ∗ (rdat m c).owesAt () t.castSucc
      ∗ owns (c : Thread nD τ) (st0_0 t) fullShare (rhs m c)
      ∗ owns (c : Thread nD τ) (st0_1 t) fullShare (iblk m c 1 t)
      ∗ owns (c : Thread nD τ) (st0_2 t) fullShare d)
    ⊢ wp frame (wpE (defs₀ (F := F)) Variants.none c none) Set.univ (bodyAt0 t) (fun _ =>
        iprop((rdat m c).Φ t.succ ∗ (rdat m c).owesAt () t.succ
          ∗ (∃ X, ⌜(rdat m c).after 0 t (rhs m c) X⌝ ∗ owns (c : Thread nD τ) (st0_0 t) fullShare X)
          ∗ (∃ X, ⌜(rdat m c).after 1 t (iblk m c 1 t) X⌝ ∗ owns (c : Thread nD τ) (st0_1 t) fullShare X)
          ∗ (∃ X, ⌜(rdat m c).after 2 t d X⌝ ∗ owns (c : Thread nD τ) (st0_2 t) fullShare X))) := by
  rw [show (rdat m c).Φ t.succ = (rdat m c).Φ t.castSucc from rfl,
    show (rdat m c).owesAt () t.succ = (rdat m c).owesAt () t.castSucc from rfl]
  simp only [after0, after1, after2]
  unfold bodyAt0
  iintro ⟨HΦ, Ho, H0, H1, H2⟩
  iapply ((bodyRun c (grid0.coords t) _ _ _ _ _ _ (rhs m c) (iblk m c 1 t) d) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  iexists _; isplitr; · ipureintro; rfl
  iexact H2

/-- The relational body obligation, at every point and for all contents the buffers may then hold. -/
theorem body_obligation (c : Dev nD) : (rdat (F := F) m c).BodyObligation (defs₀ (F := F)) Variants.none () Set.univ := fun t Y hY => by
  have h0 := finds0 m c t (Y 0) (hY 0)
  have h1 := finds1 m c t (Y 1) (hY 1)
  rw [bigSep_W0, bigSep_W0, h0, h1]
  exact sound_body m c t (Y 2)

/-! ## The run -/

set_option backward.isDefEq.respectTransparency.types false in
/-- Every weakly fair execution of @main terminates; each input array ends as it began and the result array
    stands in the relation the eight steps compose to (`RDat.ArrAt`). -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: every execution terminates with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨Pipeline.RDat.FramePost.arr_in h c 0 rfl, Pipeline.RDat.FramePost.arr_in h c 1 rfl⟩)
    (run_main m ρ)

end Cert.KernelIdeal.Step

end
-- ==== Proof.SlabValue.lean ====
/-
  The slab one grid step computes, read at an index over the extended reals.

  Step `b` reads the left factor of batch `b` as a [1, 2048, 2048] block, drops the unit axis, multiplies it on
  the matrix unit with slab `b` of the right factors (read as [1, 2048, 64], unit axis dropped) into a zero
  accumulator, and puts the unit axis back. At an index `(0, r, n)` of the result that is
  `Σ_k L[0, r, k] · R[b, k, n]`: the matrix unit's product into zero is the plain sum over the contracted axis,
  and the shape casts only re-index.
-/
import proofs.«120710_g59390807769544_cont_9to1_m_1017_16_alg».proof.Proof.StepIdeal
import Idealize.ShloMosaic.PureOps.Ideal.Laws
import Idealize.ShloMosaic.Lib.Pipeline.Value
import Idealize.ShloMosaic.Lib.ValueIdx

noncomputable section

namespace Cert.KernelIdeal.SlabValue

open Idealize.ShloMosaic Idealize.ShloMosaic.ValueIdx
open Cert.KernelIdeal Cert.KernelIdeal.Gen Cert.KernelIdeal.Step

/-! ## The product's operand indices, axis by axis -/

theorem lhs_ax0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs_ax1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
theorem rhs_ax0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem rhs_ax1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The matrix unit's product into a zero accumulator, at `(r, n)`: the sum over `k` of `a[r, k] · b[k, n]`. -/
theorem mm_apply (a : FVec Ideal S2048x2048 .f32) (b : FVec Ideal S2048x64 .f32) (r : Fin 2048) (n : Fin 64) :
    matmul dot_S2048x2048_S2048x64_S2048x64_1_0_0_1_n_n none a b (constant (F := Ideal) S2048x64 .f32 0x00000000#32) (ix2 r n)
      = ∑ k : Fin 2048, a (ix2 r k) * b (ix2 k n) := by
  show FloatOps.matmul dot_S2048x2048_S2048x64_S2048x64_1_0_0_1_n_n none a b (constant (F := Ideal) S2048x64 .f32 0x00000000#32) (ix2 r n) = _
  rw [Ideal.matmul_constant_zero_apply, ← Equiv.sum_comp (ValueIdx.contrEquiv1 dot_S2048x2048_S2048x64_S2048x64_1_0_0_1_n_n 2048 rfl rfl).symm]
  refine Finset.sum_congr rfl fun k _ => ?_
  have hk := ValueIdx.contrEquiv1_symm_val dot_S2048x2048_S2048x64_S2048x64_1_0_0_1_n_n 2048 rfl rfl k
  have el : dot_S2048x2048_S2048x64_S2048x64_1_0_0_1_n_n.lhsIdx (ix2 r n) ((ValueIdx.contrEquiv1 dot_S2048x2048_S2048x64_S2048x64_1_0_0_1_n_n 2048 rfl rfl).symm k) = ix2 r k := funext fun a => Fin.ext (by
    match a with
    | ⟨0, _⟩ => exact lhs_ax0 _ _
    | ⟨1, _⟩ => exact (lhs_ax1 _ _).trans hk)
  have er : dot_S2048x2048_S2048x64_S2048x64_1_0_0_1_n_n.rhsIdx (ix2 r n) ((ValueIdx.contrEquiv1 dot_S2048x2048_S2048x64_S2048x64_1_0_0_1_n_n 2048 rfl rfl).symm k) = ix2 k n := funext fun a => Fin.ext (by
    match a with
    | ⟨0, _⟩ => exact (rhs_ax0 _ _).trans hk
    | ⟨1, _⟩ => exact rhs_ax1 _ _)
  rw [el, er]

/-! ## The slab at an index -/

/-- Slab `b` of the step at grid coordinate `b`, at `(0, r, n)`: `Σ_k x1[0, r, k] · x0[b, k, n]`. -/
theorem slab_apply (i : grid0.Coords) (b : Fin 8) (hb : (i 0).val = b.val) (x0 : Vec Ideal S8x2048x64 .f32) (x1 : Vec Ideal S1x2048x2048 .f32)
    (z : Fin 1) (r : Fin 2048) (n : Fin 64) :
    slab (F := Ideal) i x0 x1 (ix3 z r n) = ∑ k : Fin 2048, x1 (ix3 (0 : Fin 1) r k) * x0 (ix3 b k n) := by
  have hz : z.val = 0 := by have := z.isLt; omega
  unfold slab k0_pay1
  dsimp only
  rw [shapeCast_apply _ _ (ix3 z r n) (ix2 r n) (by
    rw [Shape.rowMajor_val_two, Shape.rowMajor_val_three]
    show r.val * 64 + n.val = (z.val * 2048 + r.val) * 64 + n.val
    rw [hz]; omega)]
  rw [mm_apply]
  refine Finset.sum_congr rfl fun k _ => ?_
  congr 1
  · rw [shapeCast_apply _ _ (ix2 r k) (ix3 (0 : Fin 1) r k) (by
      rw [Shape.rowMajor_val_two, Shape.rowMajor_val_three]
      show ((0 : Fin 1).val * 2048 + r.val) * 2048 + k.val = r.val * 2048 + k.val
      simp)]
    rw [View.ld_unit_zero (by funext a; match a with | ⟨0, _⟩ => rfl | ⟨1, _⟩ => rfl | ⟨2, _⟩ => rfl)]
  · rw [shapeCast_apply _ _ (ix2 k n) (ix3 (0 : Fin 1) k n) (by
      rw [Shape.rowMajor_val_two, Shape.rowMajor_val_three]
      show ((0 : Fin 1).val * 2048 + k.val) * 64 + n.val = k.val * 64 + n.val
      simp)]
    show x0 ((Rect.unit (s := S8x2048x64) (k0_off1 i) S1x2048x64.size (Facts₀.k0_off1_inb i)).idx (ix3 (0 : Fin 1) k n)) = x0 (ix3 b k n)
    refine congrArg x0 (funext fun a => Fin.ext ?_)
    show k0_off1 i a + 1 * ((ix3 (0 : Fin 1) k n : S1x2048x64.Idx) a).val = ((ix3 b k n : S8x2048x64.Idx) a).val
    rw [k0_off1_eq i]
    match a with
    | ⟨0, _⟩ => show (i 0).val + 1 * 0 = b.val; omega
    | ⟨1, _⟩ => show 0 + 1 * k.val = k.val; omega
    | ⟨2, _⟩ => show 0 + 1 * n.val = n.val; omega

end Cert.KernelIdeal.SlabValue

end
-- ==== Proof.Spec.lean ====
/-
  The specification both programs meet: the batched matrix product over the extended reals,

      out[b, r, n] = Σ_k A[b, r, k] · B[b, k, n],   b < 8, r < 2048, k < 2048, n < 64,

  as one function of the two argument arrays, index by index. Only the order of the terms of one finite sum
  differs between the two programs, so no finiteness of the inputs is needed anywhere.
-/
import Idealize.ShloMosaic.PureOps.Ideal
import Idealize.ShloMosaic.Lib.ValueIdx

noncomputable section

namespace Cert.Spec

open Idealize.ShloMosaic Idealize.ShloMosaic.ValueIdx

/-- The batched product: entry `(b, r, n)` is the sum over `k` of `A[b, r, k] · B[b, k, n]`. -/
def bmm (A : FVec Ideal ⟨3, ![8, 2048, 2048]⟩ .f32) (B : FVec Ideal ⟨3, ![8, 2048, 64]⟩ .f32) : FVec Ideal ⟨3, ![8, 2048, 64]⟩ .f32 :=
  fun i => ∑ k : Fin 2048, A (ix3 (i 0) (i 1) k) * B (ix3 (i 0) k (i 2))

end Cert.Spec

end
-- ==== Proof.Result.lean ====
/-
  What the result array holds after the run: the batched product of the two argument arrays.

  Step `t` replaces slab `t` of the output's staging buffer by `Σ_k A[t, r, k] · B[t, k, n]` and keeps the rest;
  the buffer is neither fetched nor written back between steps, so after step `t` the slabs `0 … t` hold the
  product (induction on the step) — whatever the buffer held at first. The one write-back, after the last
  step, copies the whole buffer over the whole array: every entry of the result is then an entry of a slab some
  step wrote.
-/
import proofs.«120710_g59390807769544_cont_9to1_m_1017_16_alg».proof.Proof.SlabValue
import proofs.«120710_g59390807769544_cont_9to1_m_1017_16_alg».proof.Proof.Spec

set_option maxRecDepth 16384

noncomputable section

namespace Cert.KernelIdeal.Result

open Idealize.ShloMosaic Idealize.ShloMosaic.ValueIdx Idealize.ShloMosaic.TcCoe Idealize.SL.Sem
open Idealize.ShloMosaic.Pipeline (RDat)
open Cert.KernelIdeal Cert.KernelIdeal.Gen Cert.KernelIdeal.Step Cert.KernelIdeal.SlabValue

variable (m : (ℓ : Loc nD τ sig) → Buf (Elt Ideal) ℓ) (ρ : Dev nD → PrngReg)

/-- The batched product of the arrays as launched: left factors the second argument, right factors the first. -/
abbrev G (c : Dev nD) : Vec Ideal S8x2048x64 .f32 := Cert.Spec.bmm (V m c main_arg1) (V m c main_arg0)

/-! ## Where the windows' blocks sit -/

/-- The grid is one axis of eight points: point `t` has coordinate `t`. -/
theorem coord0 : ∀ t : Fin cfg0.N, (grid0.coords t 0).val = t.val :=
  (by decide +kernel : ∀ t : Fin grid0.N, (grid0.coords t 0).val = t.val)

/-- The second window's block at point `t` is batch `t`, whole. -/
theorem idx1 : ∀ t : Fin cfg0.N, (cfg0.win 1).index t 0 = t.val ∧ (cfg0.win 1).index t 1 = 0 ∧ (cfg0.win 1).index t 2 = 0 :=
  (by decide +kernel : ∀ t : Fin grid0.N, win0_1.index t 0 = t.val ∧ win0_1.index t 1 = 0 ∧ win0_1.index t 2 = 0)

/-- The output window's block is the whole array at every point. -/
theorem idx2 : ∀ (t : Fin cfg0.N) (a : Fin 3), (cfg0.win 2).index t a = 0 :=
  (by decide +kernel : ∀ (t : Fin grid0.N) (a : Fin 3), win0_2.index t a = 0)

/-- The left factor the step at `t` reads, at `(0, r, k)`: the second argument at `(t, r, k)`. -/
theorem lhs_read (c : Dev nD) (t : Fin cfg0.N) (b : Fin 8) (hb : b.val = t.val) (r k : Fin 2048) :
    iblk m c 1 t (ix3 (0 : Fin 1) r k) = V m c main_arg1 (ix3 b r k) := by
  show V m c main_arg1 (((cfg0.win 1).blk t).view.emb (ix3 (0 : Fin 1) r k)) = V m c main_arg1 (ix3 b r k)
  refine congrArg _ (funext fun a => Fin.ext ?_)
  show (cfg0.win 1).index t a * S1x2048x2048.size a + 1 * ((ix3 (0 : Fin 1) r k : S1x2048x2048.Idx) a).val = ((ix3 b r k : S8x2048x2048.Idx) a).val
  obtain ⟨h0, h1, h2⟩ := idx1 t
  match a with
  | ⟨0, _⟩ => show (cfg0.win 1).index t 0 * 1 + 1 * 0 = b.val; omega
  | ⟨1, _⟩ => show (cfg0.win 1).index t 1 * 2048 + 1 * r.val = r.val; omega
  | ⟨2, _⟩ => show (cfg0.win 1).index t 2 * 2048 + 1 * k.val = k.val; omega

/-! ## One step, at an index -/

/-- Inside slab `t` the step at `t` leaves the product, -/
theorem step_at (c : Dev nD) (t : Fin cfg0.N) (Y : Vec Ideal S8x2048x64 .f32) (y : S8x2048x64.Idx) (hy : (y 0).val = t.val) :
    stepOut (F := Ideal) (grid0.coords t) (rhs m c) (iblk m c 1 t) Y y = G m c y := by
  have hc := coord0 t
  have hin : ∀ a, k0_off1 (grid0.coords t) a ≤ (y a).val ∧ (y a).val < k0_off1 (grid0.coords t) a + S1x2048x64.size a := by
    intro a; rw [k0_off1_eq]
    match a with
    | ⟨0, _⟩ => show (grid0.coords t 0).val ≤ (y 0).val ∧ (y 0).val < (grid0.coords t 0).val + 1; omega
    | ⟨1, _⟩ => show 0 ≤ (y 1).val ∧ (y 1).val < 0 + 2048; have h1 : (y 1).val < 2048 := (y 1).isLt; omega
    | ⟨2, _⟩ => show 0 ≤ (y 2).val ∧ (y 2).val < 0 + 64; have h2 : (y 2).val < 64 := (y 2).isLt; omega
  unfold stepOut
  beta_reduce
  rw [dif_pos hin]
  obtain ⟨q, hq⟩ : ∃ q : S1x2048x64.Idx, q = Rect.unitLocal (s := S8x2048x64) (off := k0_off1 (grid0.coords t)) (size := S1x2048x64.size) y hin := ⟨_, rfl⟩
  rw [← hq]
  have h1 : (q 1).val = (y 1).val := by
    rw [hq, Rect.unitLocal_val, k0_off1_eq]; show (y 1).val - 0 = (y 1).val; omega
  have h2 : (q 2).val = (y 2).val := by
    rw [hq, Rect.unitLocal_val, k0_off1_eq]; show (y 2).val - 0 = (y 2).val; omega
  refine ((congrArg (slab (F := Ideal) (grid0.coords t) (rhs m c) (iblk m c 1 t)) (eq_ix3 (n0 := 1) (n1 := 2048) (n2 := 64) q)).trans
    (slab_apply (grid0.coords t) (y 0) (by rw [hc, hy]) (rhs m c) (iblk m c 1 t) (q 0) (q 1) (q 2))).trans ?_
  unfold G Cert.Spec.bmm
  refine Finset.sum_congr rfl fun k _ => ?_
  congr 1
  · refine (lhs_read m c t (y 0) hy _ k).trans (congrArg (V m c main_arg1) ?_)
    exact congrArg (fun r : Fin 2048 => (ix3 (y 0) r k : S8x2048x2048.Idx)) (Fin.ext h1)
  · refine congrArg (V m c main_arg0) ?_
    exact congrArg (fun n : Fin 64 => (ix3 (y 0) k n : S8x2048x64.Idx)) (Fin.ext h2)

/-- and outside it what it found. -/
theorem step_off (c : Dev nD) (t : Fin cfg0.N) (Y : Vec Ideal S8x2048x64 .f32) (y : S8x2048x64.Idx) (hy : (y 0).val ≠ t.val) :
    stepOut (F := Ideal) (grid0.coords t) (rhs m c) (iblk m c 1 t) Y y = Y y := by
  have hc := coord0 t
  unfold stepOut
  beta_reduce
  rw [dif_neg (fun h => by
    have h0 := h 0
    rw [k0_off1_eq] at h0
    have h0' : (grid0.coords t 0).val ≤ (y 0).val ∧ (y 0).val < (grid0.coords t 0).val + 1 := h0
    omega)]

/-! ## After step `t` the slabs up to `t` hold the product -/

theorem leaves_good (c : Dev nD) : ∀ (n : ℕ) (t : Fin cfg0.N), t.val = n → ∀ X, (rdat m c).Leaves 2 t X →
    ∀ y : S8x2048x64.Idx, (y 0).val ≤ n → X y = G m c y := by
  intro n
  induction n with
  | zero =>
    rintro t ht X ⟨Y, -, hA⟩ y hy
    rw [(after2 m c t Y X).mp hA]
    exact step_at m c t Y y (by omega)
  | succ n ih =>
    rintro t ht X ⟨Y, hF, hA⟩ y hy
    rw [(after2 m c t Y X).mp hA]
    by_cases hyt : (y 0).val = t.val
    · exact step_at m c t Y y hyt
    · rw [step_off m c t Y y hyt]
      have h8 : t.val < 8 := Nat.lt_of_lt_of_eq t.isLt N_0
      rcases ((rdat m c).finds_of_pos (fetch2 t) (by omega) Y).mp hF with hfl | hL
      · have h7 : (t.val - 1) % 8 = 7 := (flush0_2 _).mp hfl
        omega
      · exact ih ⟨t.val - 1, Nat.lt_of_le_of_lt (Nat.sub_le _ _) t.isLt⟩ (by show t.val - 1 = n; omega) Y hL y (by omega)

/-! ## The array after the one write-back -/

/-- A pipeline whose last point writes window `w` back: what the array may hold at the end is what it might hold
    before that point, overwritten by the write-back (the recursion over the points, opened once at its last step,
    for any configuration). -/
theorem arrAt_last {cfg : Pipeline.Cfg sig Λ₀} {c : Dev nD} (rd : RDat τ (Elt Ideal) Unit ℕ (UR sig nD τ) ℕ cfg c)
    (w : Fin cfg.W) (n : ℕ) (hn : n < cfg.N) (hN : cfg.N = n + 1) (hfl : (cfg.win w).flush ⟨n, hn⟩ = true)
    (Fb : Buf (Elt Ideal) ((cfg.win w).arr.view.loc (c.tc : Thread nD τ))) (h : rd.ArrAt w cfg.N Fb) :
    rd.ArrStep w ⟨n, hn⟩ (rd.ArrAt w n) Fb := by
  rw [hN] at h
  simp only [RDat.ArrAt] at h
  rw [dif_pos hn, if_pos hfl] at h
  exact h

/-- The output window's block is the whole array, so writing a whole buffer `X` back leaves the array at `X`. -/
theorem writeback_eq (c : Dev nD) (t : Fin cfg0.N) (G₀ : Buf (Elt Ideal) ((cfg0.win 2).arr.view.loc (c.tc : Thread nD τ)))
    (X : (cfg0.win 2).block.Idx → Elt Ideal (cfg0.win 2).elt) (y : S8x2048x64.Idx) :
    ((cfg0.win 2).blk t).view.write (Elt Ideal) G₀ ((cfg0.win 2).cut (cfg0.grid.coords t) X) Finset.univ y = X y := by
  have hy : ((cfg0.win 2).blk t).view.emb y = y := funext fun a => Fin.ext (by
    show (cfg0.win 2).index t a * S8x2048x64.size a + 1 * (y a).val = (y a).val
    rw [idx2]; omega)
  have hr := congrFun (View.read_write_univ (v := ((cfg0.win 2).blk t).view) G₀ ((cfg0.win 2).cut (cfg0.grid.coords t) X)) y
  rw [View.read_apply, hy] at hr
  first
    | exact eq_of_heq ((cast_heq _ _).symm.trans (heq_of_eq hr))
    | (rw [cast_eq] at hr; exact hr)
    | (simp only [cast_eq] at hr; exact hr)

/-- Whatever the result array may hold after the run is the batched product. -/
theorem result_eq (c : Dev nD) (Fb : Buf (Elt Ideal) ((cfg0.win 2).arr.view.loc (c.tc : Thread nD τ)))
    (h : (rdat m c).ArrAt 2 cfg0.N Fb) : Fb = G m c := by
  have h7 : 7 < cfg0.N := by have := N_0; show 7 < grid0.N; omega
  obtain ⟨G₀, X, -, hL, rfl⟩ := arrAt_last (rdat m c) 2 7 h7 N_0 ((flush0_2 ⟨7, h7⟩).mpr rfl) Fb h
  funext y
  refine (writeback_eq c ⟨7, h7⟩ G₀ X y).trans ?_
  have h8 : (y 0).val < 8 := (y 0).isLt
  exact leaves_good m c 7 ⟨7, h7⟩ rfl X hL y (by omega)

/-! ## The run -/

/-- Every weakly fair execution of the idealized kernel terminates with the result array at the batched product
    of the arguments and the arguments unchanged. -/
theorem run : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨result_eq m c _ ((h c).1 2),
      Pipeline.RDat.FramePost.arr_in h c 0 rfl, Pipeline.RDat.FramePost.arr_in h c 1 rfl⟩)
    (run_main m ρ)

end Cert.KernelIdeal.Result

end
-- ==== Proof.RefValue.lean ====
/-
  The reference computes the specification: its one operation is a batched `dot_general` contracting the last
  axis of the left operand with the middle axis of the right one, batch axis first on both; read at an index
  it is the sum the specification writes, term by term.
-/
import proofs.«120710_g59390807769544_cont_9to1_m_1017_16_alg».proof.Proof.Gen.ReferenceIdeal.Run
import proofs.«120710_g59390807769544_cont_9to1_m_1017_16_alg».proof.Proof.Gen.ReferenceIdeal.Read
import proofs.«120710_g59390807769544_cont_9to1_m_1017_16_alg».proof.Proof.Spec

noncomputable section

namespace Cert.ReferenceIdeal.RefValue

open Idealize.ShloMosaic Idealize.ShloMosaic.ValueIdx Cert.ReferenceIdeal Cert.ReferenceIdeal.Read

/-- The reference's result, as a function of its arguments `x0` (right factors) and `x1` (left factors), is the
    batched product. -/
theorem val_eq_bmm (x0 : (⟨S8x2048x64, .f32⟩ : BufTy).Contents (Elt Ideal)) (x1 : (⟨S8x2048x2048, .f32⟩ : BufTy).Contents (Elt Ideal)) :
    val_main_v0 (F := Ideal) x0 x1 = Cert.Spec.bmm x1 x0 := by
  funext i
  have el : ∀ k : Fin 2048, lidx_main_v0 i k = ix3 (i 0) (i 1) k := fun k =>
    funext fun a => Fin.ext (by match a with | ⟨0, _⟩ => rfl | ⟨1, _⟩ => rfl | ⟨2, _⟩ => rfl)
  have er : ∀ k : Fin 2048, ridx_main_v0 i k = ix3 (i 0) k (i 2) := fun k =>
    funext fun a => Fin.ext (by match a with | ⟨0, _⟩ => rfl | ⟨1, _⟩ => rfl | ⟨2, _⟩ => rfl)
  rw [val_main_v0_apply]
  unfold Cert.Spec.bmm
  exact Finset.sum_congr rfl fun k _ => by rw [el k, er k]; rfl

end Cert.ReferenceIdeal.RefValue

end
-- ==== Proof.lean ====
/-
  The batched matrix product `out[b] = A[b] · B[b]` (eight batches of [2048, 2048] · [2048, 64]) computed by a
  pipelined kernel, one batch per grid step, against one batched `dot_general`.

  The kernel keeps the whole output array in one staging buffer for all eight steps: step `b` stores the product
  of batch `b` into slab `b` and leaves the other slabs as it found them; the buffer is written back once, after
  the last step. What a step leaves therefore depends on what it found, so the pipeline is run with a RELATION
  between the two (Proof/StepIdeal.lean, and the same text at the word level in Proof/StepBits.lean, which gives
  the two kernel frames). Read over the extended reals, a step's slab is `Σ_k A[b, r, k] · B[b, k, n]`
  (Proof/SlabValue.lean: the matrix unit's product into a zero accumulator is the plain sum), after step `t` the
  slabs `0 … t` hold these sums, and the final write-back copies all eight over the array (Proof/Result.lean).
  The reference's `dot_general` read at an index is the same sum (Proof/RefValue.lean), so both programs end at
  the one function `Cert.Spec.bmm` of the arguments (Proof/Spec.lean). Sums are only re-indexed, never
  re-associated across an infinity, so the precondition is not used. The idealization rewrote nothing:
  `preserves` is `True`.
-/
import proofs.«120710_g59390807769544_cont_9to1_m_1017_16_alg».proof.Defs
import proofs.«120710_g59390807769544_cont_9to1_m_1017_16_alg».proof.Proof.Gen.Kernel
import proofs.«120710_g59390807769544_cont_9to1_m_1017_16_alg».proof.Proof.Gen.KernelIdeal
import proofs.«120710_g59390807769544_cont_9to1_m_1017_16_alg».proof.Proof.Gen.ReferenceIdeal
import proofs.«120710_g59390807769544_cont_9to1_m_1017_16_alg».proof.Proof.Gen.Pre_finite_inputs
import proofs.«120710_g59390807769544_cont_9to1_m_1017_16_alg».proof.Proof.StepBits
import proofs.«120710_g59390807769544_cont_9to1_m_1017_16_alg».proof.Proof.StepIdeal
import proofs.«120710_g59390807769544_cont_9to1_m_1017_16_alg».proof.Proof.Result
import proofs.«120710_g59390807769544_cont_9to1_m_1017_16_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Step.frame m ρ

theorem frame_ki : Cert.frame_KernelIdeal := fun m ρ _ => Cert.KernelIdeal.Step.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the batched product of the (agreeing) arguments. -/
theorem algebraic : Cert.algebraic_KernelIdeal_ReferenceIdeal := by
  intro m ρ m' ρ' _ hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.val_eq_bmm _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
